-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64x32 : Shape := ⟨4, ![8, 2048, 64, 32]⟩
abbrev S16 : Shape := ⟨1, ![16]⟩
abbrev S_ : Shape := ⟨0, ![]⟩

class Facts : Prop where
  bcast_S_S8x2048x64x32 : S_.BroadcastsInDim S8x2048x64x32 (![] : Fin 0 → Fin S8x2048x64x32.rank)
  reducesTo_S8x2048x64x32_S_d0_1_2_3 : S8x2048x64x32.ReducesTo [0, 1, 2, 3] S_
  h_S_ : 0 < S_.numel

variable [Facts]

def fn {F : FTy → Type} [FloatOps F] (main_arg0 : FVec F S8x2048x64x32 .f32) (main_arg1 : IVec S16 32) (main_arg2 : IVec S16 32) (main_arg3 : IVec S16 32) : IVec S_ 1 :=
  let main_v0 : FVec F S8x2048x64x32 .f32 := Host.absf main_arg0
  let main_cst : FVec F S_ .f32 := constant S_ .f32 0x7F800000#32
  let main_v1 : FVec F S8x2048x64x32 .f32 := broadcastInDim S8x2048x64x32 ![] bcast_S_S8x2048x64x32 main_cst
  let main_v2 : IVec S8x2048x64x32 1 := cmpf .olt main_v0 main_v1
  let main_c : IVec S_ 1 := constantI S_ 1 1#1
  let main_v3 : IVec S_ 1 := (fun x v => Host.reduce IntOp.andi x v reducesTo_S8x2048x64x32_S_d0_1_2_3 h_S_) main_v2 main_c
  main_v3
-- ==== Kernel.lean ====
abbrev S8x2048x64x32 : Shape := ⟨4, ![8, 2048, 64, 32]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S1x64 : Shape := ⟨2, ![1, 64]⟩
abbrev S16x64 : Shape := ⟨2, ![16, 64]⟩
abbrev S16x2048x1 : Shape := ⟨3, ![16, 2048, 1]⟩
abbrev S16x1x64 : Shape := ⟨3, ![16, 1, 64]⟩
abbrev S16x2048x64 : Shape := ⟨3, ![16, 2048, 64]⟩
abbrev S_ : Shape := ⟨0, ![]⟩
abbrev S2048x64 : Shape := ⟨2, ![2048, 64]⟩
abbrev S4x64x64x32 : Shape := ⟨4, ![4, 64, 64, 32]⟩
abbrev S64x64 : Shape := ⟨2, ![64, 64]⟩
abbrev S1x64x64x1 : Shape := ⟨4, ![1, 64, 64, 1]⟩

abbrev nBuf : Space → Nat
  | .hbm => 36
  | .vmem => 6
  | .smem => 0
  | _ => 0

abbrev bufTy : (tb : Table) → Fin (tcTables nBuf tb) → BufTy
  | .hbm, ⟨0, _⟩ => ⟨S8x2048x64x32, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S2048, .i32⟩
  | .hbm, ⟨5, _⟩ => ⟨S1x2048, .i32⟩
  | .hbm, ⟨6, _⟩ => ⟨S16x1, .i32⟩
  | .hbm, ⟨7, _⟩ => ⟨S16x2048, .i32⟩
  | .hbm, ⟨8, _⟩ => ⟨S16x2048, .i32⟩
  | .hbm, ⟨9, _⟩ => ⟨S16x2048, .i1⟩
  | .hbm, ⟨10, _⟩ => ⟨S1x2048, .i32⟩
  | .hbm, ⟨11, _⟩ => ⟨S16x1, .i32⟩
  | .hbm, ⟨12, _⟩ => ⟨S16x1, .i32⟩
  | .hbm, ⟨13, _⟩ => ⟨S16x1, .i32⟩
  | .hbm, ⟨14, _⟩ => ⟨S16x2048, .i32⟩
  | .hbm, ⟨15, _⟩ => ⟨S16x2048, .i32⟩
  | .hbm, ⟨16, _⟩ => ⟨S16x2048, .i1⟩
  | .hbm, ⟨17, _⟩ => ⟨S16x2048, .i1⟩
  | .hbm, ⟨18, _⟩ => ⟨S16x1, .i32⟩
  | .hbm, ⟨19, _⟩ => ⟨S1x64, .i32⟩
  | .hbm, ⟨20, _⟩ => ⟨S16x64, .i32⟩
  | .hbm, ⟨21, _⟩ => ⟨S16x64, .i32⟩
  | .hbm, ⟨22, _⟩ => ⟨S16x64, .i1⟩
  | .hbm, ⟨23, _⟩ => ⟨S16x2048x1, .i1⟩
  | .hbm, ⟨24, _⟩ => ⟨S16x1x64, .i1⟩
  | .hbm, ⟨25, _⟩ => ⟨S16x2048x64, .i1⟩
  | .hbm, ⟨26, _⟩ => ⟨S16x2048x64, .i1⟩
  | .hbm, ⟨27, _⟩ => ⟨S16x2048x64, .i1⟩
  | .hbm, ⟨28, _⟩ => ⟨S_, .i1⟩
  | .hbm, ⟨29, _⟩ => ⟨S2048x64, .i1⟩
  | .hbm, ⟨30, _⟩ => ⟨S_, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S8x2048x64x32, .f32⟩
  | .local _ .vmem, ⟨0, _⟩ => ⟨S4x64x64x32, .f32⟩
  | .local _ .vmem, ⟨1, _⟩ => ⟨S4x64x64x32, .f32⟩
  | .local _ .vmem, ⟨2, _⟩ => ⟨S64x64, .f32⟩
  | .local _ .vmem, ⟨3, _⟩ => ⟨S64x64, .f32⟩
  | .local _ .vmem, ⟨4, _⟩ => ⟨S4x64x64x32, .f32⟩
  | .local _ .vmem, ⟨5, _⟩ => ⟨S4x64x64x32, .f32⟩
  | _, _ => ⟨S8x2048x64x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S4x64x64x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x64x64x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S16x1_S16x64_0_1 : S16x1.BroadcastsInDim S16x64 (![0, 1] : Fin 2 → Fin S16x64.rank)
  bcast_S1x64_S16x64_0_1 : S1x64.BroadcastsInDim S16x64 (![0, 1] : Fin 2 → Fin S16x64.rank)
  bcast_S16x2048_S16x2048x1_0_1 : S16x2048.BroadcastsInDim S16x2048x1 (![0, 1] : Fin 2 → Fin S16x2048x1.rank)
  bcast_S16x64_S16x1x64_0_2 : S16x64.BroadcastsInDim S16x1x64 (![0, 2] : Fin 2 → Fin S16x1x64.rank)
  bcast_S16x2048x1_S16x2048x64_0_1_2 : S16x2048x1.BroadcastsInDim S16x2048x64 (![0, 1, 2] : Fin 3 → Fin S16x2048x64.rank)
  bcast_S16x1x64_S16x2048x64_0_1_2 : S16x1x64.BroadcastsInDim S16x2048x64 (![0, 1, 2] : Fin 3 → Fin S16x2048x64.rank)
  reducesTo_S16x2048x64_S2048x64_d0 : S16x2048x64.ReducesTo [0] S2048x64
  h_S_ : 0 < S_.numel
  bcast_S_S2048x64 : S_.BroadcastsInDim S2048x64 (![] : Fin 0 → Fin S2048x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S4x64x64x32_S4x64x64x32_0_0_0_0 : ∀ a, (![0, 0, 0, 0] : Fin 4 → Nat) a + S4x64x64x32.size a ≤ S4x64x64x32.size a
  h_S4x64x64x32 : 0 < S4x64x64x32.numel
  shapeCasts_S64x64_S1x64x64x1 : S64x64.ShapeCasts S1x64x64x1
  broadcasts_S1x64x64x1_S4x64x64x32 : S1x64x64x1.Broadcasts S4x64x64x32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x64x32.size a ≤ S8x2048x64x32.size a
  hwx0_0 : ∀ i : grid0.Coords, EltTy.bits .f32 = 32 ∨ (Rect.block (s := S8x2048x64x32) S4x64x64x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S2048x64.size a
  hwx0_1 : ∀ i : grid0.Coords, EltTy.bits .f32 = 32 ∨ (Rect.block (s := S2048x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x64x64x32.size a ≤ S8x2048x64x32.size a
  hwx0_2 : ∀ i : grid0.Coords, EltTy.bits .f32 = 32 ∨ (Rect.block (s := S8x2048x64x32) S4x64x64x32.size (cc0_transform_2 i) (hinb0_2 i)).WholeWords (EltTy.packing .f32)

variable [Facts₀]

abbrev win0_0 : Pipeline.Window sig grid0 :=
  Pipeline.Window.ofSpec (Memref.whole main_arg0) S4x64x64x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S4x64x64x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x64x32 : Shape := ⟨4, ![8, 2048, 64, 32]⟩
abbrev S16 : Shape := ⟨1, ![16]⟩
abbrev S2048 : Shape := ⟨1, ![2048]⟩
abbrev S1x2048 : Shape := ⟨2, ![1, 2048]⟩
abbrev S16x1 : Shape := ⟨2, ![16, 1]⟩
abbrev S16x2048 : Shape := ⟨2, ![16, 2048]⟩
abbrev S1x64 : Shape := ⟨2, ![1, 64]⟩
abbrev S16x64 : Shape := ⟨2, ![16, 64]⟩
abbrev S16x2048x1 : Shape := ⟨3, ![16, 2048, 1]⟩
abbrev S16x1x64 : Shape := ⟨3, ![16, 1, 64]⟩
abbrev S16x2048x64 : Shape := ⟨3, ![16, 2048, 64]⟩
abbrev S_ : Shape := ⟨0, ![]⟩
abbrev S2048x64 : Shape := ⟨2, ![2048, 64]⟩
abbrev S1x2048x64x1 : Shape := ⟨4, ![1, 2048, 64, 1]⟩

abbrev nBuf : Space → Nat
  | .hbm => 38
  | .vmem => 0
  | .smem => 0
  | _ => 0

abbrev bufTy : (tb : Table) → Fin (tcTables nBuf tb) → BufTy
  | .hbm, ⟨0, _⟩ => ⟨S8x2048x64x32, .f32⟩
  | .hbm, ⟨1, _⟩ => ⟨S16, .i32⟩
  | .hbm, ⟨2, _⟩ => ⟨S16, .i32⟩
  | .hbm, ⟨3, _⟩ => ⟨S16, .i32⟩
  | .hbm, ⟨4, _⟩ => ⟨S2048, .i32⟩
  | .hbm, ⟨5, _⟩ => ⟨S1x2048, .i32⟩
  | .hbm, ⟨6, _⟩ => ⟨S16x1, .i32⟩
  | .hbm, ⟨7, _⟩ => ⟨S16x2048, .i32⟩
  | .hbm, ⟨8, _⟩ => ⟨S16x2048, .i32⟩
  | .hbm, ⟨9, _⟩ => ⟨S16x2048, .i1⟩
  | .hbm, ⟨10, _⟩ => ⟨S1x2048, .i32⟩
  | .hbm, ⟨11, _⟩ => ⟨S16x1, .i32⟩
  | .hbm, ⟨12, _⟩ => ⟨S16x1, .i32⟩
  | .hbm, ⟨13, _⟩ => ⟨S16x1, .i32⟩
  | .hbm, ⟨14, _⟩ => ⟨S16x2048, .i32⟩
  | .hbm, ⟨15, _⟩ => ⟨S16x2048, .i32⟩
  | .hbm, ⟨16, _⟩ => ⟨S16x2048, .i1⟩
  | .hbm, ⟨17, _⟩ => ⟨S16x2048, .i1⟩
  | .hbm, ⟨18, _⟩ => ⟨S16x1, .i32⟩
  | .hbm, ⟨19, _⟩ => ⟨S1x64, .i32⟩
  | .hbm, ⟨20, _⟩ => ⟨S16x64, .i32⟩
  | .hbm, ⟨21, _⟩ => ⟨S16x64, .i32⟩
  | .hbm, ⟨22, _⟩ => ⟨S16x64, .i1⟩
  | .hbm, ⟨23, _⟩ => ⟨S16x2048x1, .i1⟩
  | .hbm, ⟨24, _⟩ => ⟨S16x1x64, .i1⟩
  | .hbm, ⟨25, _⟩ => ⟨S16x2048x64, .i1⟩
  | .hbm, ⟨26, _⟩ => ⟨S16x2048x64, .i1⟩
  | .hbm, ⟨27, _⟩ => ⟨S16x2048x64, .i1⟩
  | .hbm, ⟨28, _⟩ => ⟨S_, .i1⟩
  | .hbm, ⟨29, _⟩ => ⟨S2048x64, .i1⟩
  | .hbm, ⟨30, _⟩ => ⟨S_, .f32⟩
  | .hbm, ⟨31, _⟩ => ⟨S_, .f32⟩
  | .hbm, ⟨32, _⟩ => ⟨S2048x64, .f32⟩
  | .hbm, ⟨33, _⟩ => ⟨S2048x64, .f32⟩
  | .hbm, ⟨34, _⟩ => ⟨S2048x64, .f32⟩
  | .hbm, ⟨35, _⟩ => ⟨S1x2048x64x1, .f32⟩
  | .hbm, ⟨36, _⟩ => ⟨S8x2048x64x32, .f32⟩
  | .hbm, ⟨37, _⟩ => ⟨S8x2048x64x32, .f32⟩
  | _, _ => ⟨S8x2048x64x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_v20 : Ref sig .tc := ⟨.hbm, 29, rfl⟩
abbrev main_cst : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S16_S16x1_0 : S16.BroadcastsInDim S16x1 (![0] : Fin 1 → Fin S16x1.rank)
  bcast_S1x2048_S16x2048_0_1 : S1x2048.BroadcastsInDim S16x2048 (![0, 1] : Fin 2 → Fin S16x2048.rank)
  bcast_S16x1_S16x2048_0_1 : S16x1.BroadcastsInDim S16x2048 (![0, 1] : Fin 2 → Fin S16x2048.rank)
  bcast_S16x1_S16x64_0_1 : S16x1.BroadcastsInDim S16x64 (![0, 1] : Fin 2 → Fin S16x64.rank)
  bcast_S1x64_S16x64_0_1 : S1x64.BroadcastsInDim S16x64 (![0, 1] : Fin 2 → Fin S16x64.rank)
  bcast_S16x2048_S16x2048x1_0_1 : S16x2048.BroadcastsInDim S16x2048x1 (![0, 1] : Fin 2 → Fin S16x2048x1.rank)
  bcast_S16x64_S16x1x64_0_2 : S16x64.BroadcastsInDim S16x1x64 (![0, 2] : Fin 2 → Fin S16x1x64.rank)
  bcast_S16x2048x1_S16x2048x64_0_1_2 : S16x2048x1.BroadcastsInDim S16x2048x64 (![0, 1, 2] : Fin 3 → Fin S16x2048x64.rank)
  bcast_S16x1x64_S16x2048x64_0_1_2 : S16x1x64.BroadcastsInDim S16x2048x64 (![0, 1, 2] : Fin 3 → Fin S16x2048x64.rank)
  reducesTo_S16x2048x64_S2048x64_d0 : S16x2048x64.ReducesTo [0] S2048x64
  h_S_ : 0 < S_.numel
  bcast_S_S2048x64 : S_.BroadcastsInDim S2048x64 (![] : Fin 0 → Fin S2048x64.rank)
  bcast_S2048x64_S1x2048x64x1_1_2 : S2048x64.BroadcastsInDim S1x2048x64x1 (![1, 2] : Fin 2 → Fin S1x2048x64x1.rank)
  bcast_S1x2048x64x1_S8x2048x64x32_0_1_2_3 : S1x2048x64x1.BroadcastsInDim S8x2048x64x32 (![0, 1, 2, 3] : Fin 4 → Fin S8x2048x64x32.rank)

variable [Facts₀]

class Facts : Prop extends Facts₀ where

variable [Facts]
-- ==== Proof.MaskSpec.lean ====
/-
  The masked product, as one function of the two arrays it is made from.

  Both programs end with  out[b, l, c, d] = x[b, l, c, d] * keep[l, c] : the entry of the rank-4 array times the
  entry of the [L, C] keep matrix at the two middle coordinates.  `masked x k` is that function, index by index.
  The host reference reaches it by widening the keep matrix twice (to [1, L, C, 1], then to [B, L, C, D]) and
  multiplying whole arrays; read at an index, the two widenings pick the keep matrix's entry at the middle
  coordinates, which is `bcast_keep_apply`, and so the reference's product is `masked` (`mulf_bcast_eq`).
  Nothing here depends on what a float is: the statements hold for every float family.
-/
import Idealize.ShloMosaic.PureOps
import Idealize.ShloMosaic.Lib.ValueIdx
import Idealize.ShloMosaic.Lib.Pipeline.Value

noncomputable section

namespace Cert.Mask

open Idealize.ShloMosaic Idealize.ShloMosaic.ValueIdx

/-- The activations' shape [B, L, C, D]. -/
abbrev SX : Shape := ⟨4, ![8, 2048, 64, 32]⟩
/-- The keep matrix's shape [L, C]. -/
abbrev SK : Shape := ⟨2, ![2048, 64]⟩
/-- The keep matrix with a unit axis on either side, [1, L, C, 1]. -/
abbrev SM : Shape := ⟨4, ![1, 2048, 64, 1]⟩

variable {F : FTy → Type} [FloatOps F]

/-- Entry (b, l, c, d) of the result: the activation there times the keep matrix's entry (l, c). -/
def masked (x : FVec F SX .f32) (k : FVec F SK .f32) : FVec F SX .f32 :=
  fun i => FloatOps.mulf (x i) (k (ix2 (i 1) (i 2)))

/-- The keep matrix widened to [1, L, C, 1] along axes 1 and 2 and then to [B, L, C, D], read at (b, l, c, d), is
    its entry (l, c): the first widening forgets b and d, the second places l and c on the matrix's own axes. -/
theorem bcast_keep_apply (k : FVec F SK .f32) (h1 : SK.BroadcastsInDim SM (![1, 2] : Fin 2 → Fin 4))
    (h2 : SM.BroadcastsInDim SX (![0, 1, 2, 3] : Fin 4 → Fin 4)) (i : SX.Idx) :
    broadcastInDim SX ![0, 1, 2, 3] h2 (broadcastInDim SM ![1, 2] h1 k) i = k (ix2 (i 1) (i 2)) := by
  refine (broadcastInDim_apply _ h2 _ i (ix4 (⟨0, by decide⟩ : Fin 1) (i 1) (i 2) (⟨0, by decide⟩ : Fin 1)) ?_).trans ?_
  · intro a
    match a with
    | ⟨0, _⟩ => show 0 = if (1 : Nat) = 1 then 0 else (i 0).val; rw [if_pos rfl]
    | ⟨1, _⟩ => show (i 1).val = if (2048 : Nat) = 1 then 0 else (i 1).val; rw [if_neg (by decide)]
    | ⟨2, _⟩ => show (i 2).val = if (64 : Nat) = 1 then 0 else (i 2).val; rw [if_neg (by decide)]
    | ⟨3, _⟩ => show 0 = if (1 : Nat) = 1 then 0 else (i 3).val; rw [if_pos rfl]
  · refine broadcastInDim_apply _ h1 _ _ (ix2 (i 1) (i 2)) ?_
    intro a
    match a with
    | ⟨0, _⟩ => show (i 1).val = if (2048 : Nat) = 1 then 0 else (i 1).val; rw [if_neg (by decide)]
    | ⟨1, _⟩ => show (i 2).val = if (64 : Nat) = 1 then 0 else (i 2).val; rw [if_neg (by decide)]

/-- The reference's last three operations: the activations times the twice-widened keep matrix is `masked`. -/
theorem mulf_bcast_eq (x : FVec F SX .f32) (k : FVec F SK .f32) (h1 : SK.BroadcastsInDim SM (![1, 2] : Fin 2 → Fin 4))
    (h2 : SM.BroadcastsInDim SX (![0, 1, 2, 3] : Fin 4 → Fin 4)) :
    mulf x (broadcastInDim SX ![0, 1, 2, 3] h2 (broadcastInDim SM ![1, 2] h1 k)) = masked x k := by
  funext i
  show FloatOps.mulf (x i) (broadcastInDim SX ![0, 1, 2, 3] h2 (broadcastInDim SM ![1, 2] h1 k) i) = FloatOps.mulf (x i) (k (ix2 (i 1) (i 2)))
  rw [bcast_keep_apply]

end Cert.Mask

end
-- ==== Proof.MaskBlocks.lean ====
/-
  What the kernel leaves in its result array, as one function of the arrays it is launched on.

  The grid has 2 × 32 points; point (bi, li) reads the [4, 64, 64, 32] block of the activations at block index
  (bi, li, 0, 0) and the [64, 64] block of the keep matrix at block index (li, 0), and writes the [4, 64, 64, 32]
  block of the result at (bi, li, 0, 0).  Inside a block, entry (p, q, r, s) of what is written is the activation
  block's entry (p, q, r, s) times the keep block's entry (q, r): the body reshapes the keep block to
  [1, 64, 64, 1] and widens it to the activation block's shape before the product (`block_apply`).
  An index inside a block is  block index × block size + local index  on every axis, so row 64·li + q of the
  keep matrix is exactly the row the result's index (4·bi + p, 64·li + q, r, s) names on its axis 1: each block
  written is the matching block of `masked x keep` (`blk_eq`, for any two arrays; `flushed_eq`, at the arrays the
  call stages).  The 64 result blocks tile the array (`cover`), so the array ends holding `masked x keep`
  (`final`), x and keep being the two arrays the call's input windows stage, as the call finds them.
-/
import proofs.«142926_j76424648065762_1_alg».proof.Proof.Gen.KernelIdeal.Value
import proofs.«142926_j76424648065762_1_alg».proof.Proof.MaskSpec
import Idealize.ShloMosaic.Lib.ValueIdx

set_option maxRecDepth 16384

noncomputable section

namespace Cert.KernelIdeal.MaskBlocks

open Cert.KernelIdeal Cert.KernelIdeal.Gen Idealize.ShloMosaic Idealize.ShloMosaic.TcCoe Idealize.SL.Sem
open Idealize.ShloMosaic.ValueIdx
open Idealize.ShloMosaic.Pipeline (Dat)
open Cert.Mask (masked)

variable {F : FTy → Type} [FloatOps F]
variable (m : (ℓ : Loc nD τ sig) → Buf (Elt F) ℓ) (ρ : Dev nD → PrngReg)

/-! ## One block -/

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The activation block is read at the block index itself. -/
theorem at_self (y : S4x64x64x32.Idx) : Value.ix2_0 y = y := by
  funext a; match a with | ⟨0, _⟩ => rfl | ⟨1, _⟩ => rfl | ⟨2, _⟩ => rfl | ⟨3, _⟩ => rfl

/-- The keep block is read at the block index's two middle coordinates. -/
theorem at_middle (y : S4x64x64x32.Idx) : Value.ix2_1 y = ix2 (y 1) (y 2) := by
  funext a; match a with | ⟨0, _⟩ => rfl | ⟨1, _⟩ => rfl

/-- What the body leaves in the result's block, entry by entry: the activation block's entry times the keep
    block's entry at the two middle coordinates. -/
theorem block_apply (x0 : Vec F S4x64x64x32 .f32) (x1 : Vec F S64x64 .f32) (y : S4x64x64x32.Idx) :
    out0_2 x0 x1 y = FloatOps.mulf (x0 y) (x1 (ix2 (y 1) (y 2))) := by
  unfold out0_2
  rw [Value.canon2_eq]
  show FloatOps.mulf (View.ld x0 r0_1 (Value.ix2_0 y)) (View.ld x1 r0_0 (Value.ix2_1 y)) = _
  rw [View.ld_unit_zero (S := S4x64x64x32) zeros4, View.ld_unit_zero (S := S64x64) zeros2, at_self, at_middle]
  rfl

/-! ## The blocks against the arrays -/

/-- The printed index maps over the 64 grid points: the activation window moves with the result window, the keep
    window's row block is the result window's block on axis 1, and the other block indices are 0. -/
theorem idx_facts : ∀ t : Fin cfg0.N, win0_0.index t (0 : Fin 4) = win0_2.index t (0 : Fin 4)
    ∧ win0_0.index t (1 : Fin 4) = win0_2.index t (1 : Fin 4)
    ∧ win0_0.index t (2 : Fin 4) = win0_2.index t (2 : Fin 4)
    ∧ win0_0.index t (3 : Fin 4) = win0_2.index t (3 : Fin 4)
    ∧ win0_1.index t (0 : Fin 2) = win0_2.index t (1 : Fin 4)
    ∧ win0_1.index t (1 : Fin 2) = 0
    ∧ win0_2.index t (2 : Fin 4) = 0
    ∧ win0_2.index t (3 : Fin 4) = 0 :=
  (by decide +kernel : ∀ t : Fin grid0.N, _)

/-- Every block index (bi, li, 0, 0) with bi < 2 and li < 32 is some point's. -/
theorem idx_onto : ∀ (q0 : Fin 2) (q1 : Fin 32), ∃ t : Fin cfg0.N, win0_2.index t = ![q0.val, q1.val, 0, 0] :=
  (by decide +kernel : ∀ (q0 : Fin 2) (q1 : Fin 32), ∃ t : Fin grid0.N, win0_2.index t = ![q0.val, q1.val, 0, 0])

/-- Block `t` of the product, for ANY two arrays: the body's result on the two arrays' blocks at point `t` is
    block `t` of `masked` of the arrays.  Inside a block an array index is  block index × block size + local
    index  on every axis; the activation window's block indices are the result window's, and the keep window's
    row block is the result window's block on axis 1, so the keep entry read is the one `masked` names. -/
theorem blk_eq (X : Vec F S8x2048x64x32 .f32) (K : Vec F S2048x64 .f32) (t : Fin cfg0.N) :
    (cfg0.win 2).cut (grid0.coords t)
        (out0_2 (((cfg0.win 0).blk t).view.read (Elt F) X) (((cfg0.win 1).blk t).view.read (Elt F) K))
      = ((cfg0.win 2).blk t).view.read (Elt F) (masked X K) := by
  obtain ⟨e0, e1, e2, e3, e4, e5, e6, e7⟩ := idx_facts t
  funext j
  show out0_2 (((cfg0.win 0).blk t).view.read (Elt F) X) (((cfg0.win 1).blk t).view.read (Elt F) K) j
    = masked X K (((cfg0.win 2).blk t).view.emb j)
  refine (block_apply _ _ j).trans ?_
  show FloatOps.mulf (X (((cfg0.win 0).blk t).view.emb j)) (K (((cfg0.win 1).blk t).view.emb (ix2 (j 1) (j 2))))
    = FloatOps.mulf (X (((cfg0.win 2).blk t).view.emb j))
        (K (ix2 ((((cfg0.win 2).blk t).view.emb j) 1) ((((cfg0.win 2).blk t).view.emb j) 2)))
  have h0 : ((cfg0.win 0).blk t).view.emb j = ((cfg0.win 2).blk t).view.emb j := by
    funext a; apply Fin.ext
    match a with
    | ⟨0, _⟩ => show win0_0.index t (0 : Fin 4) * 4 + 1 * (j 0).val = win0_2.index t (0 : Fin 4) * 4 + 1 * (j 0).val; omega
    | ⟨1, _⟩ => show win0_0.index t (1 : Fin 4) * 64 + 1 * (j 1).val = win0_2.index t (1 : Fin 4) * 64 + 1 * (j 1).val; omega
    | ⟨2, _⟩ => show win0_0.index t (2 : Fin 4) * 64 + 1 * (j 2).val = win0_2.index t (2 : Fin 4) * 64 + 1 * (j 2).val; omega
    | ⟨3, _⟩ => show win0_0.index t (3 : Fin 4) * 32 + 1 * (j 3).val = win0_2.index t (3 : Fin 4) * 32 + 1 * (j 3).val; omega
  have h1 : ((cfg0.win 1).blk t).view.emb (ix2 (j 1) (j 2))
      = ix2 ((((cfg0.win 2).blk t).view.emb j) 1) ((((cfg0.win 2).blk t).view.emb j) 2) := by
    funext a; apply Fin.ext
    match a with
    | ⟨0, _⟩ => show win0_1.index t (0 : Fin 2) * 64 + 1 * (j 1).val = win0_2.index t (1 : Fin 4) * 64 + 1 * (j 1).val; omega
    | ⟨1, _⟩ => show win0_1.index t (1 : Fin 2) * 64 + 1 * (j 2).val = win0_2.index t (2 : Fin 4) * 64 + 1 * (j 2).val; omega
  rw [h0, h1]
  rfl

/-- What point `t` writes back is block `t` of `masked` of the two arrays the call's input windows stage, as the call
    finds them. -/
theorem flushed_eq (c : Dev nD) (t : Fin cfg0.N) :
    (dats m 0 c).flushed 2 t
      = ((cfg0.win 2).blk t).view.read (Elt F) (masked (V m c (Pipeline.arrRef spec0 0)) (V m c (Pipeline.arrRef spec0 1))) := by
  rw [Value.flushed2]
  unfold iblk
  exact blk_eq (V m c (Pipeline.arrRef spec0 0)) (V m c (Pipeline.arrRef spec0 1)) t

/-- An index of the result array is in point `t`'s block iff each coordinate is in the block's range on its axis. -/
theorem mem_blk (t : Fin cfg0.N) (i : S8x2048x64x32.Idx) :
    i ∈ ((cfg0.win 2).blk t).view.set ↔ ∀ a : Fin 4, win0_2.index t a * S4x64x64x32.size a ≤ (i a).val ∧ (i a).val < win0_2.index t a * S4x64x64x32.size a + S4x64x64x32.size a := by
  show i ∈ ((View.whole main_v22).slice (win0_2.rect t)).set ↔ _
  rw [View.set_slice_whole, Rect.mem_set_unit]
  exact Iff.rfl

/-- The result blocks tile the array: index (b, l, c, d) lies in the block of the point with block index
    (b / 4, l / 64, 0, 0). -/
theorem cover (i : S8x2048x64x32.Idx) :
    ∃ t : Fin cfg0.N, (cfg0.win 2).flush t = true ∧ i ∈ ((cfg0.win 2).blk t).view.set := by
  have hi0 : (i 0).val < 8 := (i 0).isLt
  have hi1 : (i 1).val < 2048 := (i 1).isLt
  have hi2 : (i 2).val < 64 := (i 2).isLt
  have hi3 : (i 3).val < 32 := (i 3).isLt
  obtain ⟨t, ht⟩ := idx_onto ⟨(i 0).val / 4, by omega⟩ ⟨(i 1).val / 64, by omega⟩
  have q0 : win0_2.index t (0 : Fin 4) = (i 0).val / 4 := congrFun ht 0
  have q1 : win0_2.index t (1 : Fin 4) = (i 1).val / 64 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 4 ≤ (i 0).val ∧ (i 0).val < win0_2.index t (0 : Fin 4) * 4 + 4; omega
  | ⟨1, _⟩ => show win0_2.index t (1 : Fin 4) * 64 ≤ (i 1).val ∧ (i 1).val < win0_2.index t (1 : Fin 4) * 64 + 64; omega
  | ⟨2, _⟩ => show win0_2.index t (2 : Fin 4) * 64 ≤ (i 2).val ∧ (i 2).val < win0_2.index t (2 : Fin 4) * 64 + 64; omega
  | ⟨3, _⟩ => show win0_2.index t (3 : Fin 4) * 32 ≤ (i 3).val ∧ (i 3).val < win0_2.index t (3 : Fin 4) * 32 + 32; omega

/-- The result array after the run: `masked` of the two staged arrays as the call finds them. -/
theorem final (c : Dev nD) :
    (dats m 0 c).arrAt 2 cfg0.N = masked (V m c (Pipeline.arrRef spec0 0)) (V m c (Pipeline.arrRef spec0 1)) :=
  (dats m 0 c).arrAt_eq_of_cover 2 (masked (V m c (Pipeline.arrRef spec0 0)) (V m c (Pipeline.arrRef spec0 1)))
    (fun t _ => flushed_eq m c t) cover

end Cert.KernelIdeal.MaskBlocks

end
-- ==== Proof.KeepMatrix.lean ====
/-
  The keep matrix, as one function of the three integer inputs, in the four stages the programs compute it in.

  For N = 16 triples (start, length, channel) the matrix has a 0 at (l, c) when some triple n has
  start n ≤ l < start n + length n  and  channel n = c,  and a 1 elsewhere:
    covered n l  :=  (l ≥ start n) and (l < start n + length n)        [N, L]
    onehot n c   :=  (channel n = c)                                    [N, C]
    zeroed l c   :=  the "or" over n of (covered n l and onehot n c)    [L, C]
    keep l c     :=  if zeroed l c then 0 else 1.
  Both programs compute it by the same host operations in the same order; each stage below is those operations
  composed, each as the program states it (comparisons signed, the sum start + length in 32-bit words, the two
  float words 0x00000000 and 0x3F800000).  No stage is ever opened: the certificate only needs that the two
  programs hand the SAME matrix to their last step.
-/
import proofs.«142926_j76424648065762_1_alg».proof.KernelIdeal

noncomputable section

namespace Cert.KernelIdeal.Keep

open Cert.KernelIdeal Idealize.ShloMosaic
open Cert.KernelIdeal.Facts₀

variable [Cert.KernelIdeal.Facts]
variable {F : FTy → Type} [FloatOps F]

/-- `covered n l`: position l lies in triple n's interval [start n, start n + length n). -/
def covered (starts lengths : IVec S16 32) : IVec S16x2048 1 :=
  andi
    (cmpi .sge
      (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1 (broadcastInDim S16x1 ![0] bcast_S16_S16x1_0 starts)))
    (cmpi .slt
      (broadcastInDim S16x2048 ![0, 1] bcast_S1x2048_S16x2048_0_1 (broadcastInDim S1x2048 ![1] bcast_S2048_S1x2048_1 (iotaInDim S2048 32 0)))
      (broadcastInDim S16x2048 ![0, 1] bcast_S16x1_S16x2048_0_1
        (addi (broadcastInDim S16x1 ![0] bcast_S16_S16x1_0 starts) (broadcastInDim S16x1 ![0] bcast_S16_S16x1_0 lengths))))

/-- `onehot n c`: triple n's channel is c. -/
def onehot (channels : IVec S16 32) : IVec S16x64 1 :=
  cmpi .eq (broadcastInDim S16x64 ![0, 1] bcast_S16x1_S16x64_0_1 (broadcastInDim S16x1 ![0] bcast_S16_S16x1_0 channels))
    (broadcastInDim S16x64 ![0, 1] bcast_S1x64_S16x64_0_1 (iotaInDim S1x64 32 1))

/-- `zeroed l c`: some triple covers position l and names channel c (the "or" over the triples). -/
def zeroed (cov : IVec S16x2048 1) (oh : IVec S16x64 1) : IVec S2048x64 1 :=
  Host.reduce IntOp.ori
    (andi (broadcastInDim S16x2048x64 ![0, 1, 2] bcast_S16x2048x1_S16x2048x64_0_1_2 (broadcastInDim S16x2048x1 ![0, 1] bcast_S16x2048_S16x2048x1_0_1 cov))
      (broadcastInDim S16x2048x64 ![0, 1, 2] bcast_S16x1x64_S16x2048x64_0_1_2 (broadcastInDim S16x1x64 ![0, 2] bcast_S16x64_S16x1x64_0_2 oh)))
    (constantI S_ 1 0#1) reducesTo_S16x2048x64_S2048x64_d0 h_S_

/-- The matrix with `a` where zeroed and `b` elsewhere, `a` and `b` scalars. -/
def choose (z : IVec S2048x64 1) (a b : FVec F S_ .f32) : FVec F S2048x64 .f32 :=
  select z (broadcastInDim S2048x64 ![] bcast_S_S2048x64 a) (broadcastInDim S2048x64 ![] bcast_S_S2048x64 b)

/-- The keep matrix of the triples `(starts, lengths, channels)`: 0 where zeroed, 1 elsewhere. -/
def keepOf (starts lengths channels : IVec S16 32) : FVec F S2048x64 .f32 :=
  choose (zeroed (covered starts lengths) (onehot channels)) (constant (F := F) S_ .f32 0x00000000#32) (constant (F := F) S_ .f32 0x3F800000#32)

end Cert.KernelIdeal.Keep

end
-- ==== Proof.KeepFound.lean ====
/-
  The keep matrix the kernel's call finds in its second window's array.

  Before the call @main runs four stretches of host operations.  Each stretch is read here from ANY buffer
  contents `W` it may start from, as one stage of the keep matrix:
    stretch 1 leaves  covered (starts, lengths)            in the buffer of %13   and does not write the channels,
    stretch 2 leaves  onehot channels                      in the buffer of %14   and does not write %13,
    stretch 3 leaves  zeroed (%13, %14)                    in the buffer of %20,  and the scalars 0 and 1,
    stretch 4 leaves  choose (%20, 0, 1)                   in the buffer of %21.
  The contents after all four are the four stages composed (the contents after two lines run in a row are the
  second line's after the first's), which is `keepOf` of the three launched integer arrays: `V_keep`.
  Reading each stretch from arbitrary contents keeps every step a statement about a short line of operations.
-/
import proofs.«142926_j76424648065762_1_alg».proof.Proof.Gen.KernelIdeal.Frame
import proofs.«142926_j76424648065762_1_alg».proof.Proof.KeepMatrix
import Idealize.ShloMosaic.Lib.StableHlo.Run

set_option maxRecDepth 16384

noncomputable section

namespace Cert.KernelIdeal.KeepFound

open Cert.KernelIdeal Cert.KernelIdeal.Gen Idealize.ShloMosaic Idealize.ShloMosaic.TcCoe Idealize.SL.Sem
open Idealize.ShloMosaic.StableHlo
open Cert.KernelIdeal.Keep (covered onehot zeroed choose keepOf)

variable {F : FTy → Type} [FloatOps F]

section Stretches

variable (W : Valuation τ sig (Elt F))

/-- Stretch 1 (the position row, the two interval ends, the two comparisons and their "and"). -/
theorem stretch_covered :
    (after hostOps0 W (Proc.devRef .tc main_v13) : S16x2048.Idx → BitVec 1)
      = covered (W (Proc.devRef .tc main_arg1)) (W (Proc.devRef .tc main_arg2)) := by
  simp only [hostOps0]
  after_results
  rfl

/-- Stretch 1 does not write the channels. -/
theorem kept_channels : after hostOps0 W (Proc.devRef .tc main_arg3) = W (Proc.devRef .tc main_arg3) := by
  simp only [hostOps0]
  after_results

/-- Stretch 2 (the channel column against the channel row). -/
theorem stretch_onehot :
    (after hostOps0_1 W (Proc.devRef .tc main_v14) : S16x64.Idx → BitVec 1) = onehot (W (Proc.devRef .tc main_arg3)) := by
  simp only [hostOps0_1]
  after_results
  simp only [TRef.ofBuf, TRef.toBuf, cast_eq]
  rfl

/-- Stretch 2 does not write the covered matrix. -/
theorem kept_covered : after hostOps0_1 W (Proc.devRef .tc main_v13) = W (Proc.devRef .tc main_v13) := by
  simp only [hostOps0_1]
  after_results

/-- Stretch 3 (both matrices widened to [N, L, C], their "and", the "or" over the triples). -/
theorem stretch_zeroed :
    (after hostOps0_2 W (Proc.devRef .tc main_v20) : S2048x64.Idx → BitVec 1)
      = zeroed (W (Proc.devRef .tc main_v13)) (W (Proc.devRef .tc main_v14)) := by
  simp only [hostOps0_2]
  after_results
  rfl

/-- Stretch 3 also writes the scalar 0 -/
theorem stretch_zero :
    (after hostOps0_2 W (Proc.devRef .tc main_cst) : S_.Idx → Elt F .f32) = constant (F := F) S_ .f32 0x00000000#32 := by
  simp only [hostOps0_2]
  after_results

/-- and the scalar 1. -/
theorem stretch_one :
    (after hostOps0_2 W (Proc.devRef .tc main_cst_0) : S_.Idx → Elt F .f32) = constant (F := F) S_ .f32 0x3F800000#32 := by
  simp only [hostOps0_2]
  after_results

/-- Stretch 4 (the two scalars widened to [L, C] and the choice between them). -/
theorem stretch_choose :
    (after hostOps0_3 W (Proc.devRef .tc main_v21) : S2048x64.Idx → Elt F .f32)
      = choose (W (Proc.devRef .tc main_v20)) (W (Proc.devRef .tc main_cst)) (W (Proc.devRef .tc main_cst_0)) := by
  simp only [hostOps0_3]
  after_results
  simp only [TRef.ofBuf, TRef.toBuf, cast_eq]
  rfl

end Stretches

variable (m : (ℓ : Loc nD τ sig) → Buf (Elt F) ℓ)

/-- The four stretches in a row, from the launched contents: the call's second window's array holds the keep
    matrix of the three launched integer arrays. -/
theorem V_keep (c : Dev nD) :
    (V m c main_v21 : S2048x64.Idx → Elt F .f32)
      = keepOf (F := F) (m ((c.tc : Thread nD τ).loc main_arg1)) (m ((c.tc : Thread nD τ).loc main_arg2)) (m ((c.tc : Thread nD τ).loc main_arg3)) := by
  dsimp only [V]
  simp only [List.flatten_cons, List.flatten_nil, List.append_nil]
  rw [StableHlo.after_append, StableHlo.after_append, StableHlo.after_append]
  rw [stretch_choose, stretch_zeroed, stretch_zero, stretch_one, stretch_onehot, kept_covered, stretch_covered, kept_channels]
  rfl

end Cert.KernelIdeal.KeepFound

end
-- ==== Proof.KernelResult.lean ====
/-
  The idealized kernel's run, read: its result array ends at `masked x keep`.

  The frame run names the result array after the run; the 64 blocks written tile it and each is the matching block
  of `masked` of the two staged arrays (the blocks module), the first staged array is the launched activations
  (no host operation writes them) and the second is the keep matrix of the launched integer arrays (the keep
  module).  So every weakly fair execution ends with the result at
    masked (launched x) (keepOf (launched starts) (launched lengths) (launched channels)),
  the four arguments unchanged.
-/
import proofs.«142926_j76424648065762_1_alg».proof.Proof.MaskBlocks
import proofs.«142926_j76424648065762_1_alg».proof.Proof.KeepFound

set_option maxRecDepth 16384

noncomputable section

namespace Cert.KernelIdeal.Result

open Cert.KernelIdeal Cert.KernelIdeal.Gen Idealize.ShloMosaic Idealize.ShloMosaic.TcCoe Idealize.SL.Sem
open Cert.Mask (masked)
open Cert.KernelIdeal.Keep (keepOf)

variable {F : FTy → Type} [FloatOps F]
variable (m : (ℓ : Loc nD τ sig) → Buf (Elt F) ℓ) (ρ : Dev nD → PrngReg)

/-- The two staged arrays as the call finds them, named by what they hold. -/
theorem staged (c : Dev nD) :
    masked (V m c (Pipeline.arrRef spec0 0)) (V m c (Pipeline.arrRef spec0 1))
      = masked (m ((c.tc : Thread nD τ).loc main_arg0))
          (keepOf (F := F) (m ((c.tc : Thread nD τ).loc main_arg1)) (m ((c.tc : Thread nD τ).loc main_arg2)) (m ((c.tc : Thread nD τ).loc main_arg3))) :=
  congrArg₂ masked (V_main_arg0 m c) (KeepFound.V_keep m c)

/-- Every weakly fair execution ends with the result array at `masked` of the launched activations and the keep
    matrix of the launched integer arrays, the arguments unchanged. -/
theorem run : θ_run defs (onTc (τ := τ) (main (F := F))) ⟨m, fun _ => 0, ρ⟩ fun r => ∀ c : Dev nD,
      r.2.mem ((c : Thread nD τ).loc main_v22)
        = masked (m ((c.tc : Thread nD τ).loc main_arg0))
            (keepOf (F := F) (m ((c.tc : Thread nD τ).loc main_arg1)) (m ((c.tc : Thread nD τ).loc main_arg2)) (m ((c.tc : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((MaskBlocks.final m c).trans (staged m c)), (h c).2⟩)
    (Value.run_blocks m ρ)

end Cert.KernelIdeal.Result

end
-- ==== Proof.RefValue.lean ====
/-
  The idealized reference's result, read: `masked x keep`.

  The reference's @main is one line of 34 host operations.  Cut where the kernel's host prefix is cut, it is five
  lines: the four that build the keep matrix (the same operations, in the same order, as the kernel's four
  stretches) and a last one of three operations — the keep matrix widened to [1, L, C, 1], then to [B, L, C, D],
  and the product with the activations.  Each line is read from ANY buffer contents `W` it may start from:
    line 1 leaves  covered (starts, lengths)   in the buffer of %13,
    line 2 leaves  onehot channels             in the buffer of %14,
    line 3 leaves  zeroed (%13, %14)           in the buffer of %20,  and the scalars 0 and 1,
    line 4 leaves  choose (%20, 0, 1)          in the buffer of %21,
    line 5 leaves  masked (x, %21)             in the result's buffer,
  and no line writes the activations, nor a buffer a later line still reads from an earlier one.  The contents
  after two lines run in a row are the second's after the first's, so the result is the five stages composed:
  `masked` of the launched activations and the keep matrix of the launched integer arrays (`result`) — the very
  term the kernel's run ends at.
-/
import proofs.«142926_j76424648065762_1_alg».proof.Proof.RefRunFold
import proofs.«142926_j76424648065762_1_alg».proof.Proof.KeepMatrix
import proofs.«142926_j76424648065762_1_alg».proof.Proof.MaskSpec
import proofs.«142926_j76424648065762_1_alg».proof.Proof.Gen.KernelIdeal
import Idealize.ShloMosaic.Lib.Pipeline.Frame

set_option maxRecDepth 16384

noncomputable section

namespace Cert.ReferenceIdeal.RefValue

open Cert.ReferenceIdeal Cert.ReferenceIdeal.Gen Idealize.ShloMosaic Idealize.ShloMosaic.TcCoe Idealize.SL.Sem
open Idealize.ShloMosaic.StableHlo
open Cert.ReferenceIdeal.RunFold (ops)
open Cert.KernelIdeal.Keep (covered onehot zeroed choose keepOf)
open Cert.Mask (masked)

variable {F : FTy → Type} [FloatOps F]

/-! ## The five lines -/

abbrev line1 : List (HloOp τ sig (Elt F)) := (ops (F := F)).take 14
abbrev line2 : List (HloOp τ sig (Elt F)) := ((ops (F := F)).drop 14).take 5
abbrev line3 : List (HloOp τ sig (Elt F)) := ((ops (F := F)).drop 19).take 9
abbrev line4 : List (HloOp τ sig (Elt F)) := ((ops (F := F)).drop 28).take 3
abbrev line5 : List (HloOp τ sig (Elt F)) := (ops (F := F)).drop 31

theorem ops_lines : ops (F := F) = line1 ++ (line2 ++ (line3 ++ (line4 ++ line5))) := rfl

section Lines

variable (W : Valuation τ sig (Elt F))

/-! ### Line 1 -/

theorem line1_covered :
    (after line1 W (Proc.devRef .tc main_v13) : S16x2048.Idx → BitVec 1)
      = covered (W (Proc.devRef .tc main_arg1)) (W (Proc.devRef .tc main_arg2)) := by
  simp only [line1, ops, List.take_succ_cons, List.take_zero]
  after_results
  rfl

theorem line1_channels : after line1 W (Proc.devRef .tc main_arg3) = W (Proc.devRef .tc main_arg3) := by
  simp only [line1, ops, List.take_succ_cons, List.take_zero]
  after_results

theorem line1_x : after line1 W (Proc.devRef .tc main_arg0) = W (Proc.devRef .tc main_arg0) := by
  simp only [line1, ops, List.take_succ_cons, List.take_zero]
  after_results

/-! ### Line 2 -/

theorem line2_onehot :
    (after line2 W (Proc.devRef .tc main_v14) : S16x64.Idx → BitVec 1) = onehot (W (Proc.devRef .tc main_arg3)) := by
  simp only [line2, ops, List.take_succ_cons, List.take_zero, List.drop_succ_cons, List.drop_zero]
  after_results
  simp only [TRef.ofBuf, TRef.toBuf, cast_eq]
  rfl

theorem line2_covered : after line2 W (Proc.devRef .tc main_v13) = W (Proc.devRef .tc main_v13) := by
  simp only [line2, ops, List.take_succ_cons, List.take_zero, List.drop_succ_cons, List.drop_zero]
  after_results

theorem line2_x : after line2 W (Proc.devRef .tc main_arg0) = W (Proc.devRef .tc main_arg0) := by
  simp only [line2, ops, List.take_succ_cons, List.take_zero, List.drop_succ_cons, List.drop_zero]
  after_results

/-! ### Line 3 -/

theorem line3_zeroed :
    (after line3 W (Proc.devRef .tc main_v20) : S2048x64.Idx → BitVec 1)
      = zeroed (W (Proc.devRef .tc main_v13)) (W (Proc.devRef .tc main_v14)) := by
  simp only [line3, ops, List.take_succ_cons, List.take_zero, List.drop_succ_cons, List.drop_zero]
  after_results
  rfl

theorem line3_zero :
    (after line3 W (Proc.devRef .tc main_cst) : S_.Idx → Elt F .f32) = constant (F := F) S_ .f32 0x00000000#32 := by
  simp only [line3, ops, List.take_succ_cons, List.take_zero, List.drop_succ_cons, List.drop_zero]
  after_results

theorem line3_one :
    (after line3 W (Proc.devRef .tc main_cst_0) : S_.Idx → Elt F .f32) = constant (F := F) S_ .f32 0x3F800000#32 := by
  simp only [line3, ops, List.take_succ_cons, List.take_zero, List.drop_succ_cons, List.drop_zero]
  after_results

theorem line3_x : after line3 W (Proc.devRef .tc main_arg0) = W (Proc.devRef .tc main_arg0) := by
  simp only [line3, ops, List.take_succ_cons, List.take_zero, List.drop_succ_cons, List.drop_zero]
  after_results

/-! ### Line 4 -/

theorem line4_choose :
    (after line4 W (Proc.devRef .tc main_v21) : S2048x64.Idx → Elt F .f32)
      = choose (W (Proc.devRef .tc main_v20)) (W (Proc.devRef .tc main_cst)) (W (Proc.devRef .tc main_cst_0)) := by
  simp only [line4, ops, List.take_succ_cons, List.take_zero, List.drop_succ_cons, List.drop_zero]
  after_results
  simp only [TRef.ofBuf, TRef.toBuf, cast_eq]
  rfl

theorem line4_x : after line4 W (Proc.devRef .tc main_arg0) = W (Proc.devRef .tc main_arg0) := by
  simp only [line4, ops, List.take_succ_cons, List.take_zero, List.drop_succ_cons, List.drop_zero]
  after_results

/-! ### Line 5 -/

/-- The two widenings and the product: `masked` of the activations and whatever matrix line 4 left. -/
theorem line5_product :
    (after line5 W (Proc.devRef .tc main_v24) : S8x2048x64x32.Idx → Elt F .f32)
      = masked (W (Proc.devRef .tc main_arg0)) (W (Proc.devRef .tc main_v21)) := by
  simp only [line5, ops, List.drop_succ_cons, List.drop_zero]
  after_results
  exact Cert.Mask.mulf_bcast_eq _ _ _ _

end Lines

/-! ## The five lines in a row -/

variable (m : (ℓ : Loc nD τ sig) → Buf (Elt F) ℓ) (ρ : Dev nD → PrngReg)

/-- From the launched contents the result buffer ends at `masked` of the launched activations and the keep matrix
    of the launched integer arrays. -/
theorem result (c : Dev nD) :
    (after ops (launchContents m c) (Proc.devRef .tc main_v24) : S8x2048x64x32.Idx → Elt F .f32)
      = masked (m ((c.tc : Thread nD τ).loc main_arg0))
          (keepOf (F := F) (m ((c.tc : Thread nD τ).loc main_arg1)) (m ((c.tc : Thread nD τ).loc main_arg2)) (m ((c.tc : Thread nD τ).loc main_arg3))) := by
  rw [ops_lines, StableHlo.after_append, StableHlo.after_append, StableHlo.after_append, StableHlo.after_append]
  rw [line5_product, line4_x, line3_x, line2_x, line1_x, line4_choose, line3_zeroed, line3_zero, line3_one, line2_onehot,
    line2_covered, line1_covered, line1_channels]
  rfl

/-- Every weakly fair execution of the reference ends with its result at that term, the arguments unchanged. -/
theorem run : θ_run defs (onTc (τ := τ) (main (F := F))) ⟨m, fun _ => 0, ρ⟩ fun r => ∀ c : Dev nD,
      r.2.mem ((c.tc : Thread nD τ).loc main_v24)
        = masked (m ((c.tc : Thread nD τ).loc main_arg0))
            (keepOf (F := F) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result m c), (h c).2⟩) (RunFold.run m ρ)

end Cert.ReferenceIdeal.RefValue

end
-- ==== Proof.lean ====
/-
  The certificate of the masking kernel against its reference: both compute
      out[b, l, c, d] = x[b, l, c, d] * keep[l, c],
  where keep[l, c] is 0 when one of the 16 triples (start, length, channel) has start ≤ l < start + length and
  channel = c, and 1 otherwise.

  Both programs build the keep matrix with the same host operations in the same order, so it is named once
  (`keepOf`) and never opened.  The kernel then multiplies block by block over a 2 × 32 grid — each
  [4, 64, 64, 32] block of x by the matching [64, 64] block of keep, reshaped and widened inside the body —
  and its 64 result blocks tile the result array, which therefore ends at `masked x keep`.  The reference widens
  the whole keep matrix twice and multiplies whole arrays, which read at an index is `masked x keep` as well.
  So both runs end at ONE term of the arguments, for every float family; no law of the extended reals is used and
  the precondition (finite x) is never opened.

  The frames of the two kernel programs are the generated ones; the reference's frame is its run with the result
  dropped.  The ideal pass rewrote nothing, so the kernel's idealization is the program's own text read at the
  ideal instance.
-/
import proofs.«142926_j76424648065762_1_alg».proof.Defs
import proofs.«142926_j76424648065762_1_alg».proof.Proof.Gen.Kernel
import proofs.«142926_j76424648065762_1_alg».proof.Proof.Gen.Kernel.Skeleton
import proofs.«142926_j76424648065762_1_alg».proof.Proof.Gen.Kernel.Launch
import proofs.«142926_j76424648065762_1_alg».proof.Proof.Gen.Kernel.Points
import proofs.«142926_j76424648065762_1_alg».proof.Proof.Gen.Kernel.Frame
import proofs.«142926_j76424648065762_1_alg».proof.Proof.Gen.KernelIdeal
import proofs.«142926_j76424648065762_1_alg».proof.Proof.Gen.KernelIdeal.Skeleton
import proofs.«142926_j76424648065762_1_alg».proof.Proof.Gen.KernelIdeal.Launch
import proofs.«142926_j76424648065762_1_alg».proof.Proof.Gen.KernelIdeal.Points
import proofs.«142926_j76424648065762_1_alg».proof.Proof.Gen.KernelIdeal.Frame
import proofs.«142926_j76424648065762_1_alg».proof.Proof.Gen.ReferenceIdeal
import proofs.«142926_j76424648065762_1_alg».proof.Proof.Gen.KernelIdeal.Value
import proofs.«142926_j76424648065762_1_alg».proof.Proof.Gen.Pre_finite_inputs
import proofs.«142926_j76424648065762_1_alg».proof.Proof.KernelResult
import proofs.«142926_j76424648065762_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, and leaves its arguments as they were: the generated frame. -/
theorem frame_kernel : Cert.frame_Kernel := fun m ρ _ => Cert.Kernel.Gen.frame m ρ

/-- So does the kernel read at the ideal instance. -/
theorem frame_kernel_ideal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.RunFold.run (F := Ideal) m ρ)

/-- From memories that agree on the four arguments both programs end at `masked x (keepOf starts lengths channels)`
    of those arguments: the kernel's run read block by block, the reference's read line by line. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
